-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S8x1x1024x1024 : Shape := ⟨4, ![8, 1, 1024, 1024]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) (main_arg3 : IVec S8x1x1024x1024 32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S8x1x1024x1024 : Shape := ⟨4, ![8, 1, 1024, 1024]⟩
abbrev S8x16x1024x1024 : Shape := ⟨4, ![8, 16, 1024, 1024]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S1x1x256x64 : Shape := ⟨4, ![1, 1, 256, 64]⟩
abbrev S256x64 : Shape := ⟨2, ![256, 64]⟩
abbrev S1x1x256x1024 : Shape := ⟨4, ![1, 1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x1x1024x1024, .i32⟩
  | .hbm, ⟨4, _⟩ => ⟨S8x16x1024x64, .f32⟩
  | .hbm, ⟨5, _⟩ => ⟨S8x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x1024, .i32⟩
  | .local _ .vmem, ⟨7, _⟩ => ⟨S1x1x1024x1024, .i32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x1024x64_S1x1x256x64_0_0_0_0 : ∀ a, (![0, 0, 0, 0] : Fin 4 → Nat) a + S1x1x256x64.size a ≤ S1x1x1024x64.size a
  h_S1x1x256x64 : 0 < S1x1x256x64.numel
  shapeCasts_S1x1x256x64_S256x64 : S1x1x256x64.ShapeCasts S256x64
  inb_S1x1x1024x1024_S1x1x256x1024_0_0_0_0 : ∀ a, (![0, 0, 0, 0] : Fin 4 → Nat) a + S1x1x256x1024.size a ≤ S1x1x1024x1024.size a
  h_S1x1x256x1024 : 0 < S1x1x256x1024.numel
  shapeCasts_S1x1x256x1024_S256x1024 : S1x1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x64_S1x1x256x64 : S256x64.ShapeCasts S1x1x256x64
  shapeCasts_S256x1024_S1x1x256x1024 : S256x1024.ShapeCasts S1x1x256x1024
  inb_S1x1x1024x64_S1x1x256x64_0_0_256_0 : ∀ a, (![0, 0, 256, 0] : Fin 4 → Nat) a + S1x1x256x64.size a ≤ S1x1x1024x64.size a
  inb_S1x1x1024x1024_S1x1x256x1024_0_0_256_0 : ∀ a, (![0, 0, 256, 0] : Fin 4 → Nat) a + S1x1x256x1024.size a ≤ S1x1x1024x1024.size a
  inb_S1x1x1024x64_S1x1x256x64_0_0_512_0 : ∀ a, (![0, 0, 512, 0] : Fin 4 → Nat) a + S1x1x256x64.size a ≤ S1x1x1024x64.size a
  inb_S1x1x1024x1024_S1x1x256x1024_0_0_512_0 : ∀ a, (![0, 0, 512, 0] : Fin 4 → Nat) a + S1x1x256x1024.size a ≤ S1x1x1024x1024.size a
  inb_S1x1x1024x64_S1x1x256x64_0_0_768_0 : ∀ a, (![0, 0, 768, 0] : Fin 4 → Nat) a + S1x1x256x64.size a ≤ S1x1x1024x64.size a
  inb_S1x1x1024x1024_S1x1x256x1024_0_0_768_0 : ∀ a, (![0, 0, 768, 0] : Fin 4 → Nat) a + S1x1x256x1024.size a ≤ S1x1x1024x1024.size a
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x1024.size a ≤ S8x1x1024x1024.size a
  hwx0_3 : ∀ i : grid0.Coords, EltTy.bits .i32 = 32 ∨ (Rect.block (s := S8x1x1024x1024) S1x1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x16x1024x64.size a
  hwx0_4 : ∀ i : grid0.Coords, EltTy.bits .f32 = 32 ∨ (Rect.block (s := S8x16x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x16x1024x1024.size a
  hwx0_5 : ∀ i : grid0.Coords, EltTy.bits .f32 = 32 ∨ (Rect.block (s := S8x16x1024x1024) S1x1x1024x1024.size (cc0_transform_5 i) (hinb0_5 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S8x1x1024x1024 : Shape := ⟨4, ![8, 1, 1024, 1024]⟩
abbrev S8x16x1024x1024 : Shape := ⟨4, ![8, 16, 1024, 1024]⟩
abbrev S_ : Shape := ⟨0, ![]⟩
abbrev S8x16x1024 : Shape := ⟨3, ![8, 16, 1024]⟩
abbrev S8x16x1024x1 : Shape := ⟨4, ![8, 16, 1024, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x1x1024x1024, .i32⟩
  | .hbm, ⟨4, _⟩ => ⟨S8x16x1024x1024, .f32⟩
  | .hbm, ⟨5, _⟩ => ⟨S_, .f32⟩
  | .hbm, ⟨6, _⟩ => ⟨S8x16x1024x1024, .f32⟩
  | .hbm, ⟨7, _⟩ => ⟨S8x16x1024x1024, .f32⟩
  | .hbm, ⟨8, _⟩ => ⟨S_, .f32⟩
  | .hbm, ⟨9, _⟩ => ⟨S8x16x1024, .f32⟩
  | .hbm, ⟨10, _⟩ => ⟨S_, .f32⟩
  | .hbm, ⟨11, _⟩ => ⟨S8x16x1024, .f32⟩
  | .hbm, ⟨12, _⟩ => ⟨S8x16x1024, .f32⟩
  | .hbm, ⟨13, _⟩ => ⟨S8x16x1024x1, .f32⟩
  | .hbm, ⟨14, _⟩ => ⟨S8x16x1024x1024, .f32⟩
  | .hbm, ⟨15, _⟩ => ⟨S8x16x1024x1024, .f32⟩
  | .hbm, ⟨16, _⟩ => ⟨S8x16x1024x1024, .f32⟩
  | .hbm, ⟨17, _⟩ => ⟨S_, .f32⟩
  | .hbm, ⟨18, _⟩ => ⟨S8x16x1024, .f32⟩
  | .hbm, ⟨19, _⟩ => ⟨S8x16x1024x1, .f32⟩
  | .hbm, ⟨20, _⟩ => ⟨S8x16x1024x1024, .f32⟩
  | .hbm, ⟨21, _⟩ => ⟨S8x16x1024x1024, .f32⟩
  | .hbm, ⟨22, _⟩ => ⟨S_, .i32⟩
  | .hbm, ⟨23, _⟩ => ⟨S8x1x1024x1024, .i32⟩
  | .hbm, ⟨24, _⟩ => ⟨S8x1x1024x1024, .i1⟩
  | .hbm, ⟨25, _⟩ => ⟨S_, .f32⟩
  | .hbm, ⟨26, _⟩ => ⟨S8x16x1024x1024, .i1⟩
  | .hbm, ⟨27, _⟩ => ⟨S8x16x1024x1024, .f32⟩
  | .hbm, ⟨28, _⟩ => ⟨S8x16x1024x1024, .f32⟩
  | .hbm, ⟨29, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  bcast_S_S8x1x1024x1024 : S_.BroadcastsInDim S8x1x1024x1024 (![] : Fin 0 → Fin S8x1x1024x1024.rank)
  bcast_S8x1x1024x1024_S8x16x1024x1024_0_1_2_3 : S8x1x1024x1024.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.Chunk.lean ====
/-
  One chunk of the kernel body: 256 query rows against all 1024 keys.

  The body is unrolled four times over the query axis, and each copy computes the same thing of its own 256 query
  rows `q`, the whole key block `k`, the whole value block `v` and its own 256 rows of the mask: the scaled
  scores `q·kᵀ·2⁻³`, their row-wise softmax (shifted by the row maximum), the overwrite by `−100000` where the
  mask word is zero, and the product of that with `v`. Here the chunk is written once, as a function of those four
  operands at any float instance, and every payload of the printed body is shown to be it (by unfolding).
-/
import proofs.«416634_j33182917329161_3_alg».proof.Proof.Gen.KernelIdeal.Skeleton

noncomputable section

namespace Cert.KernelIdeal.Chunk

open Cert.KernelIdeal Cert.KernelIdeal.Gen
open Idealize.ShloMosaic Idealize.SL.Sem

variable {F : FTy → Type} [FloatOps F]

/-- The scaled scores of the chunk's query rows against every key: `(q·kᵀ)·2⁻³`. -/
def scores (q : FVec F S256x64 .f32) (k : FVec F S1024x64 .f32) : FVec F S256x1024 .f32 :=
  mulf (matmul dot_S256x64_S1024x64_S256x1024_1_1_0_0_n_n (some .fp32) q k (constant S256x1024 .f32 0x00000000#32))
    (broadcast S256x1024 (Scalar.ofBits .f32 0x3E000000#32))

/-- The maximum of each row, from `−∞`. -/
def rowMaxima (s : FVec F S256x1024 .f32) : FVec F S256 .f32 :=
  multiReduction .maximumf [1] S256 s 0xFF800000#32 reduces_S256x1024_S256 (.inl rfl) rfl

/-- The sum of each row. -/
def rowSums (e : FVec F S256x1024 .f32) : FVec F S256 .f32 :=
  multiReduction .add [1] S256 e 0x00000000#32 reduces_S256x1024_S256 (.inl rfl) rfl

/-- One number per row, repeated along the row. -/
def keep (v : FVec F S256 .f32) : FVec F S256x1024 .f32 :=
  broadcastTo S256x1024 (shapeCast S256x1 v shapeCasts_S256_S256x1) broadcasts_S256x1_S256x1024

/-- Each row shifted by its maximum, exponentiated. -/
def shifted (s : FVec F S256x1024 .f32) : FVec F S256x1024 .f32 := exp (subf s (keep (rowMaxima s)))

/-- Each row divided by its sum. -/
def normalised (e : FVec F S256x1024 .f32) : FVec F S256x1024 .f32 := divf e (keep (rowSums e))

/-- The overwrite by `−100000` where the mask word is zero. -/
def masked (μ : IVec S256x1024 32) (a : FVec F S256x1024 .f32) : FVec F S256x1024 .f32 :=
  select (cmpi .eq μ (broadcast S256x1024 0#32)) (broadcast S256x1024 (Scalar.ofBits .f32 0xC7C35000#32)) a

/-- The chunk's rows of the attention matrix. -/
def chunkAttn (q : FVec F S256x64 .f32) (k : FVec F S1024x64 .f32) (μ : IVec S256x1024 32) : FVec F S256x1024 .f32 :=
  masked μ (normalised (shifted (scores q k)))

/-- The chunk's rows of the output: the attention rows against the values. -/
def chunkOut (a : FVec F S256x1024 .f32) (v : FVec F S1024x64 .f32) : FVec F S256x64 .f32 :=
  matmul dot_S256x1024_S1024x64_S256x64_1_0_0_1_n_n (some .fp32) a v (constant S256x64 .f32 0x00000000#32)

/-! ## The printed payloads are the chunk -/

/-- A [1, 1, 256, 64] load seen as a matrix. -/
abbrev asQ (x : Vec F S1x1x256x64 .f32) : FVec F S256x64 .f32 := shapeCast S256x64 x shapeCasts_S1x1x256x64_S256x64
/-- A [1, 1, 1024, 64] load seen as a matrix. -/
abbrev asK (x : Vec F S1x1x1024x64 .f32) : FVec F S1024x64 .f32 := shapeCast S1024x64 x shapeCasts_S1x1x1024x64_S1024x64
/-- A [1, 1, 256, 1024] load of mask words seen as a matrix. -/
abbrev asM (x : Vec F S1x1x256x1024 .i32) : IVec S256x1024 32 := shapeCast S256x1024 x shapeCasts_S1x1x256x1024_S256x1024
/-- A chunk's attention rows as a [1, 1, 256, 1024] piece of the block. -/
abbrev toA (a : FVec F S256x1024 .f32) : FVec F S1x1x256x1024 .f32 := shapeCast S1x1x256x1024 a shapeCasts_S256x1024_S1x1x256x1024
/-- A chunk's output rows as a [1, 1, 256, 64] piece of the block. -/
abbrev toO (o : FVec F S256x64 .f32) : FVec F S1x1x256x64 .f32 := shapeCast S1x1x256x64 o shapeCasts_S256x64_S1x1x256x64

theorem pay4_eq (v0 : Vec F S1x1x1024x64 .f32) : k0_pay4 v0 = asK v0 := rfl
theorem pay5_eq (v2 : Vec F S1x1x1024x64 .f32) : k0_pay5 v2 = asK v2 := rfl
theorem pay15_eq (v85 : Vec F S1x1x256x64 .f32) : k0_pay15 v85 = asQ v85 := rfl

-- the first chunk (rows 0–255)
theorem pay6_eq (v0 : Vec F S1x1x1024x64 .f32) (v4 : Vec F S1x1x256x64 .f32) (v6 : Vec F S1x1x256x1024 .i32) :
    k0_pay6 v0 v4 v6 = chunkAttn (asQ v4) (asK v0) (asM v6) := rfl
theorem pay7_eq (v0 v2 : Vec F S1x1x1024x64 .f32) (v4 : Vec F S1x1x256x64 .f32) (v6 : Vec F S1x1x256x1024 .i32) :
    k0_pay7 v0 v2 v4 v6 = toO (chunkOut (chunkAttn (asQ v4) (asK v0) (asM v6)) (asK v2)) := rfl
theorem pay8_eq (a : FVec F S256x1024 .f32) : k0_pay8 a = toA a := rfl

-- the second chunk (rows 256–511)
theorem pay9_eq (v1 : FVec F S1024x64 .f32) (v31 : Vec F S1x1x256x64 .f32) (v33 : Vec F S1x1x256x1024 .i32) :
    k0_pay9 v1 v31 v33 = chunkAttn (asQ v31) v1 (asM v33) := rfl
theorem pay10_eq (v1 v3 : FVec F S1024x64 .f32) (v31 : Vec F S1x1x256x64 .f32) (v33 : Vec F S1x1x256x1024 .i32) :
    k0_pay10 v1 v3 v31 v33 = toO (chunkOut (chunkAttn (asQ v31) v1 (asM v33)) v3) := rfl
theorem pay11_eq (v1 : FVec F S1024x64 .f32) (v31 : Vec F S1x1x256x64 .f32) (v33 : Vec F S1x1x256x1024 .i32) :
    k0_pay11 v1 v31 v33 = toA (chunkAttn (asQ v31) v1 (asM v33)) := rfl

-- the third chunk (rows 512–767)
theorem pay12_eq (v1 : FVec F S1024x64 .f32) (v58 : Vec F S1x1x256x64 .f32) (v60 : Vec F S1x1x256x1024 .i32) :
    k0_pay12 v1 v58 v60 = chunkAttn (asQ v58) v1 (asM v60) := rfl
theorem pay13_eq (v1 v3 : FVec F S1024x64 .f32) (v58 : Vec F S1x1x256x64 .f32) (v60 : Vec F S1x1x256x1024 .i32) :
    k0_pay13 v1 v3 v58 v60 = toO (chunkOut (chunkAttn (asQ v58) v1 (asM v60)) v3) := rfl
theorem pay14_eq (v1 : FVec F S1024x64 .f32) (v58 : Vec F S1x1x256x64 .f32) (v60 : Vec F S1x1x256x1024 .i32) :
    k0_pay14 v1 v58 v60 = toA (chunkAttn (asQ v58) v1 (asM v60)) := rfl

-- the fourth chunk (rows 768–1023)
theorem pay1_eq (v1 : FVec F S1024x64 .f32) (v86 : FVec F S256x64 .f32) (v87 : Vec F S1x1x256x1024 .i32) :
    k0_pay1 v1 v86 v87 = chunkAttn v86 v1 (asM v87) := rfl
theorem pay2_eq (v1 v3 : FVec F S1024x64 .f32) (v86 : FVec F S256x64 .f32) (v87 : Vec F S1x1x256x1024 .i32) :
    k0_pay2 v1 v3 v86 v87 = toO (chunkOut (chunkAttn v86 v1 (asM v87)) v3) := rfl
theorem pay3_eq (v1 : FVec F S1024x64 .f32) (v86 : FVec F S256x64 .f32) (v87 : Vec F S1x1x256x1024 .i32) :
    k0_pay3 v1 v86 v87 = toA (chunkAttn v86 v1 (asM v87)) := rfl

end Cert.KernelIdeal.Chunk

end
-- ==== Proof.AttnRow.lean ====
/-
  Scaled-dot-product attention with the mask applied AFTER the softmax, one query row at a time.

  For a query row `q ∈ ℝ̄^64`, a key matrix `K ∈ ℝ̄^{1024×64}` and a mask row `μ ∈ (32-bit words)^1024`:
    score  s_k = (∑_d q_d · K_{k,d}) · 2⁻³
    M      = max (−∞, s_0, …, s_1023)            (a fold of `max` from the word 0xFF800000)
    e_k    = exp (s_k − M),   Z = ∑_k e_k
    a_k    = −100000 if μ_k = 0, else e_k / Z
  and, for a value matrix `V ∈ ℝ̄^{1024×64}`, the output row `o_d = ∑_k a_k · V_{k,d}`.
  All arithmetic is that of the extended reals at the ideal instance; nothing here needs a finite input.
  The one law recorded is that a quotient by the f32 word of `8` is the product with the f32 word of `1/8`
  on every extended real, infinities included.
-/
import Idealize.ShloMosaic.PureOps.Ideal
import Mathlib.Data.Finset.Fold

noncomputable section

namespace Cert.Attn

open Idealize.ShloMosaic

/-- The f32 word `0x41000000` denotes the real `8`. -/
theorem ofBits_eight : Ideal.ofBits .f32 0x41000000#32 = ((8 : ℝ) : EReal) := by
  simp [Ideal.ofBits, Ideal.ieee, -EReal.coe_mul]; norm_num

/-- The f32 word `0x3E000000` denotes the real `1/8`. -/
theorem ofBits_eighth : Ideal.ofBits .f32 0x3E000000#32 = ((1 / 8 : ℝ) : EReal) := by
  simp [Ideal.ofBits, Ideal.ieee, -EReal.coe_mul]; norm_num

/-- Dividing by `8` is multiplying by `1/8`, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- The scaled scores of one query row against every key. -/
def scoreRow (q : Fin 64 → EReal) (K : Fin 1024 → Fin 64 → EReal) : Fin 1024 → EReal :=
  fun k => (∑ d : Fin 64, q d * K k d) * Ideal.ofBits .f32 0x3E000000#32

/-- The largest score of a row, folded from the word of `−∞`. -/
def rowMax (s : Fin 1024 → EReal) : EReal :=
  (Finset.univ : Finset (Fin 1024)).fold max (Ideal.ofBits .f32 0xFF800000#32) s

/-- The shifted exponentials of a row. -/
def expRow (s : Fin 1024 → EReal) : Fin 1024 → EReal := fun k => Ideal.exp (s k - rowMax s)

/-- The softmax of a row. -/
def softRow (s : Fin 1024 → EReal) : Fin 1024 → EReal :=
  fun k => Ideal.div (expRow s k) (∑ k' : Fin 1024, expRow s k')

/-- The attention row: the softmax of the scaled scores, overwritten by `−100000` where the mask word is zero. -/
def attnRow (q : Fin 64 → EReal) (K : Fin 1024 → Fin 64 → EReal) (μ : Fin 1024 → BitVec 32) : Fin 1024 → EReal :=
  fun k => Scalar.select (IntOp.cmpi .eq (μ k) 0#32) (Ideal.ofBits .f32 0xC7C35000#32) (softRow (scoreRow q K) k)

/-- The output row: the attention row against the values. -/
def outRow (a : Fin 1024 → EReal) (V : Fin 1024 → Fin 64 → EReal) : Fin 64 → EReal :=
  fun d => ∑ k : Fin 1024, a k * V k d

/-- A fold of `max` is at least its initial value, so taking the maximum with that value again changes nothing. -/
theorem max_init_rowMax (s : Fin 1024 → EReal) :
    max (Ideal.ofBits .f32 0xFF800000#32) (rowMax s) = rowMax s :=
  max_eq_right ((Finset.le_fold_max _).mpr (Or.inl le_rfl))

end Cert.Attn

end
-- ==== Proof.LibUnitAxes.lean ====
/-
  Layout operations that every block-wise kernel with a `keepdims` reduction meets, read at an index given by
  coordinates: a shape cast that adds or drops TWO leading unit axes (a [1, 1, a, b] block seen as an [a, b]
  matrix, and back), the cast of a vector to a column ([a] to [a, 1]), and a column broadcast along its rows
  ([a, 1] to [a, b]). Each is the library's row-major statement with the arithmetic done once.
-/
import Idealize.ShloMosaic.Lib.ValueLayout

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector cast to a column and broadcast along the rows reads, at `(i, j)`, the vector at `i`: what a
    `keepdims` reduction's result is when it meets the array it was reduced from. -/
theorem keepdims_apply {a b : ℕ} (x : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibUnitAxes
-- ==== Proof.ChunkValue.lean ====
/-
  The chunk read at an index, at the ideal instance.

  Row `r` of a chunk's attention rows is the attention row of the specification for the chunk's query row `r`,
  the key block and row `r` of the chunk's mask words; row `r` of the chunk's output rows is that attention row
  against the value block. The steps: a matrix product into a zero accumulator is the sum over the contracted
  axis of the operands' products; a lane maximum from `−∞` is the fold of `max` over the row; a lane sum is the
  sum over the row; a per-row number repeated along the row is read back at the row; the rest is pointwise.
-/
import proofs.«416634_j33182917329161_3_alg».proof.Proof.Chunk
import proofs.«416634_j33182917329161_3_alg».proof.Proof.AttnRow
import proofs.«416634_j33182917329161_3_alg».proof.Proof.LibUnitAxes
import Idealize.ShloMosaic.Lib.ValueIdx
import Idealize.ShloMosaic.PureOps.Ideal.Laws

noncomputable section

namespace Cert.KernelIdeal.Chunk

open Cert.KernelIdeal Cert.KernelIdeal.Gen
open Idealize.ShloMosaic Idealize.ShloMosaic.ValueIdx Idealize.SL.Sem
open Cert.Attn Cert.LibUnitAxes

/-! ## The scores: `q·kᵀ` contracts the second axis of both operands -/

theorem lhs_qk_0 (i : S256x1024.Idx) (p : dot_S256x64_S1024x64_S256x1024_1_1_0_0_n_n.contr.Idx) :
    (dot_S256x64_S1024x64_S256x1024_1_1_0_0_n_n.lhsIdx i p 0).val = (i 0).val := by
  unfold DotDims.lhsIdx
  rw [dif_neg (show ¬(0 : Fin S256x64.rank) ∈ dot_S256x64_S1024x64_S256x1024_1_1_0_0_n_n.lhsBatch by decide), dif_pos (show (0 : Fin S256x64.rank) ∈ dot_S256x64_S1024x64_S256x1024_1_1_0_0_n_n.lhsNonContracting by decide)]
  rfl
theorem lhs_qk_1 (i : S256x1024.Idx) (p : dot_S256x64_S1024x64_S256x1024_1_1_0_0_n_n.contr.Idx) :
    (dot_S256x64_S1024x64_S256x1024_1_1_0_0_n_n.lhsIdx i p 1).val = (p ⟨0, by decide⟩).val :=
  dot_S256x64_S1024x64_S256x1024_1_1_0_0_n_n.lhsIdx_val_of_single rfl i p
theorem rhs_qk_0 (i : S256x1024.Idx) (p : dot_S256x64_S1024x64_S256x1024_1_1_0_0_n_n.contr.Idx) :
    (dot_S256x64_S1024x64_S256x1024_1_1_0_0_n_n.rhsIdx i p 0).val = (i 1).val := by
  unfold DotDims.rhsIdx
  rw [dif_neg (show ¬(0 : Fin S1024x64.rank) ∈ dot_S256x64_S1024x64_S256x1024_1_1_0_0_n_n.rhsBatch by decide), dif_pos (show (0 : Fin S1024x64.rank) ∈ dot_S256x64_S1024x64_S256x1024_1_1_0_0_n_n.rhsNonContracting by decide)]
  rfl
theorem rhs_qk_1 (i : S256x1024.Idx) (p : dot_S256x64_S1024x64_S256x1024_1_1_0_0_n_n.contr.Idx) :
    (dot_S256x64_S1024x64_S256x1024_1_1_0_0_n_n.rhsIdx i p 1).val = (p ⟨0, by decide⟩).val :=
  dot_S256x64_S1024x64_S256x1024_1_1_0_0_n_n.rhsIdx_val_of_single rfl i p

/-- Entry `(r, c)` of `q·kᵀ` is `∑_d q[r, d]·k[c, d]`. -/
theorem qk_apply (q : FVec Ideal S256x64 .f32) (k : FVec Ideal S1024x64 .f32) (r : Fin 256) (c : Fin 1024) :
    matmul dot_S256x64_S1024x64_S256x1024_1_1_0_0_n_n (some .fp32) q k (constant (F := Ideal) S256x1024 .f32 0x00000000#32) (ix2 r c)
      = ∑ d : Fin 64, q (ix2 r d) * k (ix2 c d) := by
  simp only [matmul]
  rw [Ideal.matmul_constant_zero_apply, ← Equiv.sum_comp (contrEquiv1 dot_S256x64_S1024x64_S256x1024_1_1_0_0_n_n 64 rfl rfl).symm]
  refine Finset.sum_congr rfl fun d _ => ?_
  have hd := contrEquiv1_symm_val dot_S256x64_S1024x64_S256x1024_1_1_0_0_n_n 64 rfl rfl d
  have el : dot_S256x64_S1024x64_S256x1024_1_1_0_0_n_n.lhsIdx (ix2 r c) ((contrEquiv1 dot_S256x64_S1024x64_S256x1024_1_1_0_0_n_n 64 rfl rfl).symm d) = ix2 r d := funext fun a => Fin.ext (by
    match a with
    | ⟨0, _⟩ => exact lhs_qk_0 _ _
    | ⟨1, _⟩ => exact (lhs_qk_1 _ _).trans hd)
  have er : dot_S256x64_S1024x64_S256x1024_1_1_0_0_n_n.rhsIdx (ix2 r c) ((contrEquiv1 dot_S256x64_S1024x64_S256x1024_1_1_0_0_n_n 64 rfl rfl).symm d) = ix2 c d := funext fun a => Fin.ext (by
    match a with
    | ⟨0, _⟩ => exact rhs_qk_0 _ _
    | ⟨1, _⟩ => exact (rhs_qk_1 _ _).trans hd)
  rw [el, er]

/-- Row `r` of the scaled scores is the specification's score row. -/
theorem scores_apply (q : FVec Ideal S256x64 .f32) (k : FVec Ideal S1024x64 .f32) (r : Fin 256) (c : Fin 1024) :
    scores (F := Ideal) q k (ix2 r c) = scoreRow (fun d => q (ix2 r d)) (fun c' d => k (ix2 c' d)) c := by
  show matmul dot_S256x64_S1024x64_S256x1024_1_1_0_0_n_n (some .fp32) q k (constant (F := Ideal) S256x1024 .f32 0x00000000#32) (ix2 r c) * Ideal.ofBits .f32 0x3E000000#32 = _
  rw [qk_apply]
  rfl

/-! ## The output: `a·v` contracts the columns of `a` with the rows of `v` -/

theorem lhs_av_0 (i : S256x64.Idx) (p : dot_S256x1024_S1024x64_S256x64_1_0_0_1_n_n.contr.Idx) :
    (dot_S256x1024_S1024x64_S256x64_1_0_0_1_n_n.lhsIdx i p 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
theorem lhs_av_1 (i : S256x64.Idx) (p : dot_S256x1024_S1024x64_S256x64_1_0_0_1_n_n.contr.Idx) :
    (dot_S256x1024_S1024x64_S256x64_1_0_0_1_n_n.lhsIdx i p 1).val = (p ⟨0, by decide⟩).val :=
  dot_S256x1024_S1024x64_S256x64_1_0_0_1_n_n.lhsIdx_val_of_single rfl i p
theorem rhs_av_0 (i : S256x64.Idx) (p : dot_S256x1024_S1024x64_S256x64_1_0_0_1_n_n.contr.Idx) :
    (dot_S256x1024_S1024x64_S256x64_1_0_0_1_n_n.rhsIdx i p 0).val = (p ⟨0, by decide⟩).val :=
  dot_S256x1024_S1024x64_S256x64_1_0_0_1_n_n.rhsIdx_val_of_single rfl i p
theorem rhs_av_1 (i : S256x64.Idx) (p : dot_S256x1024_S1024x64_S256x64_1_0_0_1_n_n.contr.Idx) :
    (dot_S256x1024_S1024x64_S256x64_1_0_0_1_n_n.rhsIdx i p 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- Entry `(r, d)` of the chunk's output is `∑_c a[r, c]·v[c, d]`. -/
theorem chunkOut_apply (a : FVec Ideal S256x1024 .f32) (v : FVec Ideal S1024x64 .f32) (r : Fin 256) (d : Fin 64) :
    chunkOut (F := Ideal) a v (ix2 r d) = ∑ c : Fin 1024, a (ix2 r c) * v (ix2 c d) := by
  unfold chunkOut
  simp only [matmul]
  rw [Ideal.matmul_constant_zero_apply, ← Equiv.sum_comp (contrEquiv1 dot_S256x1024_S1024x64_S256x64_1_0_0_1_n_n 1024 rfl rfl).symm]
  refine Finset.sum_congr rfl fun c _ => ?_
  have hc := contrEquiv1_symm_val dot_S256x1024_S1024x64_S256x64_1_0_0_1_n_n 1024 rfl rfl c
  have el : dot_S256x1024_S1024x64_S256x64_1_0_0_1_n_n.lhsIdx (ix2 r d) ((contrEquiv1 dot_S256x1024_S1024x64_S256x64_1_0_0_1_n_n 1024 rfl rfl).symm c) = ix2 r c := funext fun a => Fin.ext (by
    match a with
    | ⟨0, _⟩ => exact lhs_av_0 _ _
    | ⟨1, _⟩ => exact (lhs_av_1 _ _).trans hc)
  have er : dot_S256x1024_S1024x64_S256x64_1_0_0_1_n_n.rhsIdx (ix2 r d) ((contrEquiv1 dot_S256x1024_S1024x64_S256x64_1_0_0_1_n_n 1024 rfl rfl).symm c) = ix2 c d := funext fun a => Fin.ext (by
    match a with
    | ⟨0, _⟩ => exact (rhs_av_0 _ _).trans hc
    | ⟨1, _⟩ => exact rhs_av_1 _ _)
  rw [el, er]

/-! ## The softmax of a row -/

/-- A row's index with the column put back is `(r, c)`. -/
theorem lift_row (r : Fin 256) (c : Fin 1024) : reduces_S256x1024_S256.lift (ix1 r) c = ix2 r c :=
  funext fun a => Fin.ext (by match a with | ⟨0, _⟩ => rfl | ⟨1, _⟩ => rfl)

/-- A lane maximum from `−∞` at row `r` is the fold of `max` over the row. -/
theorem rowMaxima_apply' (s : FVec Ideal S256x1024 .f32) (hφ : FKind.Formats .f32)
    (hacc : (0xFF800000#32 : BitVec 32) = FKind.maximumf.neutral .f32 hφ) (r : Fin 256) :
    multiReduction .maximumf [1] S256 s 0xFF800000#32 reduces_S256x1024_S256 hφ hacc (ix1 r) = rowMax (fun c => s (ix2 r c)) := by
  refine (Ideal.multiReduction_maximumf_single s 0xFF800000#32 reduces_S256x1024_S256 hφ hacc (ix1 r)).trans ?_
  show Finset.fold max (Ideal.ofBits .f32 0xFF800000#32) (fun c : Fin 1024 => s (reduces_S256x1024_S256.lift (ix1 r) c)) (Finset.univ : Finset (Fin 1024)) = _
  simp only [lift_row]
  rfl

theorem rowMaxima_apply (s : FVec Ideal S256x1024 .f32) (r : Fin 256) :
    rowMaxima (F := Ideal) s (ix1 r) = rowMax (fun c => s (ix2 r c)) :=
  rowMaxima_apply' s _ _ r

/-- A lane sum at row `r` is the sum over the row. -/
theorem rowSums_apply' (e : FVec Ideal S256x1024 .f32) (hφ : FKind.Formats .f32)
    (hacc : (0x00000000#32 : BitVec 32) = FKind.add.neutral .f32 hφ) (r : Fin 256) :
    multiReduction .add [1] S256 e 0x00000000#32 reduces_S256x1024_S256 hφ hacc (ix1 r) = ∑ c : Fin 1024, e (ix2 r c) := by
  refine (Ideal.multiReduction_add_single e 0x00000000#32 reduces_S256x1024_S256 hφ hacc (ix1 r)).trans ?_
  show ∑ c : Fin 1024, e (reduces_S256x1024_S256.lift (ix1 r) c) = _
  simp only [lift_row]

theorem rowSums_apply (e : FVec Ideal S256x1024 .f32) (r : Fin 256) :
    rowSums (F := Ideal) e (ix1 r) = ∑ c : Fin 1024, e (ix2 r c) :=
  rowSums_apply' e _ _ r

/-- A per-row number repeated along the row is read back at the row. -/
theorem keep_apply {F : FTy → Type} [FloatOps F] (v : FVec F S256 .f32) (r : Fin 256) (c : Fin 1024) :
    keep v (ix2 r c) = v (ix1 r) :=
  keepdims_apply v shapeCasts_S256_S256x1 broadcasts_S256x1_S256x1024 r c

/-- Row `r` of the shifted exponentials. -/
theorem shifted_apply (s : FVec Ideal S256x1024 .f32) (r : Fin 256) (c : Fin 1024) :
    shifted (F := Ideal) s (ix2 r c) = expRow (fun c' => s (ix2 r c')) c := by
  show Ideal.exp (s (ix2 r c) - keep (rowMaxima (F := Ideal) s) (ix2 r c)) = _
  rw [keep_apply, rowMaxima_apply]
  rfl

/-- Row `r` of the normalised rows. -/
theorem normalised_apply (e : FVec Ideal S256x1024 .f32) (r : Fin 256) (c : Fin 1024) :
    normalised (F := Ideal) e (ix2 r c) = Ideal.div (e (ix2 r c)) (∑ c' : Fin 1024, e (ix2 r c')) := by
  show Ideal.div (e (ix2 r c)) (keep (rowSums (F := Ideal) e) (ix2 r c)) = _
  rw [keep_apply, rowSums_apply]

/-- Row `r` of the softmax of a score matrix is the specification's softmax of its row `r`. -/
theorem soft_apply (s : FVec Ideal S256x1024 .f32) (r : Fin 256) (c : Fin 1024) :
    normalised (F := Ideal) (shifted (F := Ideal) s) (ix2 r c) = softRow (fun c' => s (ix2 r c')) c := by
  rw [normalised_apply]
  simp only [shifted_apply]
  rfl

/-! ## The chunk -/

/-- Row `r` of the chunk's attention rows is the specification's attention row of query row `r`, the keys and
    row `r` of the mask words. -/
theorem chunkAttn_apply (q : FVec Ideal S256x64 .f32) (k : FVec Ideal S1024x64 .f32) (μ : IVec S256x1024 32) (r : Fin 256) (c : Fin 1024) :
    chunkAttn (F := Ideal) q k μ (ix2 r c)
      = attnRow (fun d => q (ix2 r d)) (fun c' d => k (ix2 c' d)) (fun c' => μ (ix2 r c')) c := by
  show Scalar.select (IntOp.cmpi .eq (μ (ix2 r c)) 0#32) (Ideal.ofBits .f32 0xC7C35000#32)
      (normalised (F := Ideal) (shifted (F := Ideal) (scores (F := Ideal) q k)) (ix2 r c)) = _
  rw [soft_apply]
  simp only [scores_apply]
  rfl

/-- Row `r` of the chunk's output rows is the specification's output row. -/
theorem chunkOutAttn_apply (q : FVec Ideal S256x64 .f32) (k v : FVec Ideal S1024x64 .f32) (μ : IVec S256x1024 32) (r : Fin 256) (d : Fin 64) :
    chunkOut (F := Ideal) (chunkAttn (F := Ideal) q k μ) v (ix2 r d)
      = outRow (attnRow (fun d' => q (ix2 r d')) (fun c' d' => k (ix2 c' d')) (fun c' => μ (ix2 r c'))) (fun c' d' => v (ix2 c' d')) d := by
  rw [chunkOut_apply]
  simp only [chunkAttn_apply]
  rfl

end Cert.KernelIdeal.Chunk

end
-- ==== Proof.Block.lean ====
/-
  One grid point's block: 1024 query rows, 1024 keys.

  The body stores each output block as four pieces of 256 rows. Row `o + r` of the block (the chunk at row offset
  `o`, its row `r`) holds the attention row of the block's query row `o + r`, of the whole key block and of row
  `o + r` of the mask block; the other output holds that row against the value block. So the four pieces are the
  restrictions of ONE function of the block index, and the canon of the stores is that function.
-/
import proofs.«416634_j33182917329161_3_alg».proof.Proof.Gen.KernelIdeal.Frame
import proofs.«416634_j33182917329161_3_alg».proof.Proof.ChunkValue
import Idealize.ShloMosaic.Lib.Pipeline.Value

set_option maxRecDepth 16384

noncomputable section

namespace Cert.KernelIdeal.Block

open Cert.KernelIdeal Cert.KernelIdeal.Gen Cert.KernelIdeal.Chunk
open Idealize.ShloMosaic Idealize.ShloMosaic.ValueIdx Idealize.SL.Sem
open Cert.Attn Cert.LibUnitAxes

variable (x0 x1 x2 : Vec Ideal S1x1x1024x64 .f32) (x3 : Vec Ideal S1x1x1024x1024 .i32)

/-- Row `r` of the block's attention matrix. -/
def attnOfBlock (r : Fin 1024) : Fin 1024 → EReal :=
  attnRow (fun d => x0 (ix4 (0 : Fin 1) (0 : Fin 1) r d)) (fun c d => x1 (ix4 (0 : Fin 1) (0 : Fin 1) c d))
    (fun c => x3 (ix4 (0 : Fin 1) (0 : Fin 1) r c))

/-- Row `r` of the block's output. -/
def outOfBlock (r : Fin 1024) : Fin 64 → EReal :=
  outRow (attnOfBlock x0 x1 x3 r) (fun c d => x2 (ix4 (0 : Fin 1) (0 : Fin 1) c d))

/-- The attention block as one function of its index. -/
def GA : S1x1x1024x1024.Idx → EReal := fun y => attnOfBlock x0 x1 x3 (y 2) (y 3)

/-- The output block as one function of its index. -/
def GO : S1x1x1024x64.Idx → EReal := fun y => outOfBlock x0 x1 x2 x3 (y 2) (y 3)

theorem hz4 : (![0, 0, 0, 0] : Fin 4 → Nat) = fun _ => 0 := funext fun a => by fin_cases a <;> rfl

/-- A piece of 256 rows at row offset `o` puts its local index `(u, v, r, c)` at `(0, 0, o + r, c)` of the block. -/
theorem emb_rows {n : ℕ} (o : ℕ)
    (inb : ∀ a, (![0, 0, o, 0] : Fin 4 → ℕ) a + (⟨4, ![1, 1, 256, n]⟩ : Shape).size a ≤ (⟨4, ![1, 1, 1024, n]⟩ : Shape).size a)
    (u v : Fin 1) (r : Fin 256) (c : Fin n) (h : o + r.val < 1024) :
    (Rect.unit (s := ⟨4, ![1, 1, 1024, n]⟩) ![0, 0, o, 0] (⟨4, ![1, 1, 256, n]⟩ : Shape).size inb).idx (ix4 u v r c)
      = ix4 (0 : Fin 1) (0 : Fin 1) (⟨o + r.val, h⟩ : Fin 1024) c :=
  funext fun a => Fin.ext (by
    match a with
    | ⟨0, _⟩ => show 0 + 1 * u.val = 0; omega
    | ⟨1, _⟩ => show 0 + 1 * v.val = 0; omega
    | ⟨2, _⟩ => show o + 1 * r.val = o + r.val; omega
    | ⟨3, _⟩ => show 0 + 1 * c.val = c.val; omega)

/-- The whole key (or value) block, loaded and seen as a matrix, at `(c, d)`. -/
theorem asK_ld (x : Vec Ideal S1x1x1024x64 .f32) (c : Fin 1024) (d : Fin 64) :
    asK (View.ld x r0_0) (ix2 c d) = x (ix4 (0 : Fin 1) (0 : Fin 1) c d) := by
  refine (shapeCast_11ab_ab_apply _ shapeCasts_S1x1x1024x64_S1024x64 c d).trans ?_
  rw [View.ld_unit_zero (S := S1x1x1024x64) hz4]

/-- The query rows at offset `o`, loaded and seen as a matrix, at `(r, d)`. -/
theorem asQ_ld (x : Vec Ideal S1x1x1024x64 .f32) (o : ℕ)
    (inb : ∀ a, (![0, 0, o, 0] : Fin 4 → ℕ) a + S1x1x256x64.size a ≤ S1x1x1024x64.size a)
    (r : Fin 256) (d : Fin 64) (h : o + r.val < 1024) :
    asQ (View.ld x (Rect.unit (s := S1x1x1024x64) ![0, 0, o, 0] S1x1x256x64.size inb)) (ix2 r d)
      = x (ix4 (0 : Fin 1) (0 : Fin 1) (⟨o + r.val, h⟩ : Fin 1024) d) := by
  refine (shapeCast_11ab_ab_apply _ shapeCasts_S1x1x256x64_S256x64 r d).trans ?_
  exact congrArg x (emb_rows o inb 0 0 r d h)

/-- The mask rows at offset `o`, loaded and seen as a matrix, at `(r, c)`. -/
theorem asM_ld (x : Vec Ideal S1x1x1024x1024 .i32) (o : ℕ)
    (inb : ∀ a, (![0, 0, o, 0] : Fin 4 → ℕ) a + S1x1x256x1024.size a ≤ S1x1x1024x1024.size a)
    (r : Fin 256) (c : Fin 1024) (h : o + r.val < 1024) :
    asM (View.ld x (Rect.unit (s := S1x1x1024x1024) ![0, 0, o, 0] S1x1x256x1024.size inb)) (ix2 r c)
      = x (ix4 (0 : Fin 1) (0 : Fin 1) (⟨o + r.val, h⟩ : Fin 1024) c) := by
  refine (shapeCast_11ab_ab_apply _ shapeCasts_S1x1x256x1024_S256x1024 r c).trans ?_
  exact congrArg x (emb_rows o inb 0 0 r c h)

/-- The attention piece at row offset `o` is the block function on the piece's rows. -/
theorem pieceA (o : ℕ)
    (inbq : ∀ a, (![0, 0, o, 0] : Fin 4 → ℕ) a + S1x1x256x64.size a ≤ S1x1x1024x64.size a)
    (inbm : ∀ a, (![0, 0, o, 0] : Fin 4 → ℕ) a + S1x1x256x1024.size a ≤ S1x1x1024x1024.size a)
    (x : S1x1x256x1024.Idx) :
    toA (chunkAttn (F := Ideal) (asQ (View.ld x0 (Rect.unit (s := S1x1x1024x64) ![0, 0, o, 0] S1x1x256x64.size inbq)))
        (asK (View.ld x1 r0_0)) (asM (View.ld x3 (Rect.unit (s := S1x1x1024x1024) ![0, 0, o, 0] S1x1x256x1024.size inbm)))) x
      = GA x0 x1 x3 ((Rect.unit (s := S1x1x1024x1024) ![0, 0, o, 0] S1x1x256x1024.size inbm).emb x) := by
  obtain ⟨u, v, r, c, rfl⟩ : ∃ (u v : Fin 1) (r : Fin 256) (c : Fin 1024), x = ix4 u v r c := ⟨x 0, x 1, x 2, x 3, eq_ix4 x⟩
  have h : o + r.val < 1024 := by have := inbm 2; have hr := r.isLt; simp at this; omega
  refine (shapeCast_ab_11ab_apply _ shapeCasts_S256x1024_S1x1x256x1024 u v r c).trans ?_
  rw [chunkAttn_apply]
  simp only [asK_ld, asQ_ld x0 o inbq _ _ h, asM_ld x3 o inbm _ _ h]
  show _ = GA x0 x1 x3 ((Rect.unit (s := S1x1x1024x1024) ![0, 0, o, 0] S1x1x256x1024.size inbm).idx (ix4 u v r c))
  rw [emb_rows o inbm u v r c h]
  rfl

/-- The output piece at row offset `o` is the block function on the piece's rows. -/
theorem pieceO (o : ℕ)
    (inbq : ∀ a, (![0, 0, o, 0] : Fin 4 → ℕ) a + S1x1x256x64.size a ≤ S1x1x1024x64.size a)
    (inbm : ∀ a, (![0, 0, o, 0] : Fin 4 → ℕ) a + S1x1x256x1024.size a ≤ S1x1x1024x1024.size a)
    (x : S1x1x256x64.Idx) :
    toO (chunkOut (F := Ideal) (chunkAttn (F := Ideal) (asQ (View.ld x0 (Rect.unit (s := S1x1x1024x64) ![0, 0, o, 0] S1x1x256x64.size inbq)))
        (asK (View.ld x1 r0_0)) (asM (View.ld x3 (Rect.unit (s := S1x1x1024x1024) ![0, 0, o, 0] S1x1x256x1024.size inbm))))
        (asK (View.ld x2 r0_0))) x
      = GO x0 x1 x2 x3 ((Rect.unit (s := S1x1x1024x64) ![0, 0, o, 0] S1x1x256x64.size inbq).emb x) := by
  obtain ⟨u, v, r, d, rfl⟩ : ∃ (u v : Fin 1) (r : Fin 256) (d : Fin 64), x = ix4 u v r d := ⟨x 0, x 1, x 2, x 3, eq_ix4 x⟩
  have h : o + r.val < 1024 := by have := inbm 2; have hr := r.isLt; simp at this; omega
  refine (shapeCast_ab_11ab_apply _ shapeCasts_S256x64_S1x1x256x64 u v r d).trans ?_
  rw [chunkOutAttn_apply]
  simp only [asK_ld, asQ_ld x0 o inbq _ _ h, asM_ld x3 o inbm _ _ h]
  show _ = GO x0 x1 x2 x3 ((Rect.unit (s := S1x1x1024x64) ![0, 0, o, 0] S1x1x256x64.size inbq).idx (ix4 u v r d))
  rw [emb_rows o inbq u v r d h]
  rfl

/-- What the body leaves in the attention block's buffer is the block function. -/
theorem out0_5_eq : out0_5 x0 x1 x2 x3 = GA x0 x1 x3 := by
  funext y
  unfold out0_5
  refine View.canon_apply_of_pieces (Val := Elt Ideal) (S := S1x1x1024x1024) (e := .f32) (GA x0 x1 x3) _ ?_ y (cover0_5 _ _ _ _ y)
  intro p hp x
  simp only [List.mem_cons, List.not_mem_nil, or_false] at hp
  rcases hp with rfl | rfl | rfl | rfl
  · exact pieceA x0 x1 x3 768 _ _ x
  · exact pieceA x0 x1 x3 512 _ _ x
  · exact pieceA x0 x1 x3 256 _ _ x
  · exact pieceA x0 x1 x3 0 _ _ x

/-- What the body leaves in the output block's buffer is the block function. -/
theorem out0_4_eq : out0_4 x0 x1 x2 x3 = GO x0 x1 x2 x3 := by
  funext y
  unfold out0_4
  refine View.canon_apply_of_pieces (Val := Elt Ideal) (S := S1x1x1024x64) (e := .f32) (GO x0 x1 x2 x3) _ ?_ y (cover0_4 _ _ _ _ y)
  intro p hp x
  simp only [List.mem_cons, List.not_mem_nil, or_false] at hp
  rcases hp with rfl | rfl | rfl | rfl
  · exact pieceO x0 x1 x2 x3 768 _ _ x
  · exact pieceO x0 x1 x2 x3 512 _ _ x
  · exact pieceO x0 x1 x2 x3 256 _ _ x
  · exact pieceO x0 x1 x2 x3 0 _ _ x

end Cert.KernelIdeal.Block

end
-- ==== Proof.AttnArray.lean ====
/-
  The two results as whole-array functions of the four arguments.

  Entry `(b, h, q, k)` of the attention array is entry `k` of the attention row of query row `(b, h, q, ·)`, the keys
  `(b, h, ·, ·)` and the mask row `(b, 0, q, ·)` (the mask is shared by the heads); entry `(b, h, q, d)` of the output
  array is entry `d` of that row against the values `(b, h, ·, ·)`.
-/
import proofs.«416634_j33182917329161_3_alg».proof.Proof.AttnRow
import Idealize.ShloMosaic.Lib.ValueIdx

noncomputable section

namespace Cert.Attn

open Idealize.ShloMosaic Idealize.ShloMosaic.ValueIdx

/-- The attention row at batch `b`, head `h`, query `q`. -/
def attnAt (Q K : (⟨4, ![8, 16, 1024, 64]⟩ : Shape).Idx → EReal) (M : (⟨4, ![8, 1, 1024, 1024]⟩ : Shape).Idx → BitVec 32)
    (b : Fin 8) (h : Fin 16) (q : Fin 1024) : Fin 1024 → EReal :=
  attnRow (fun d => Q (ix4 b h q d)) (fun c d => K (ix4 b h c d)) (fun c => M (ix4 b (0 : Fin 1) q c))

/-- The attention array. -/
def attnArr (Q K : (⟨4, ![8, 16, 1024, 64]⟩ : Shape).Idx → EReal) (M : (⟨4, ![8, 1, 1024, 1024]⟩ : Shape).Idx → BitVec 32) :
    (⟨4, ![8, 16, 1024, 1024]⟩ : Shape).Idx → EReal :=
  fun i => attnAt Q K M (i 0) (i 1) (i 2) (i 3)

/-- The output array. -/
def outArr (Q K V : (⟨4, ![8, 16, 1024, 64]⟩ : Shape).Idx → EReal) (M : (⟨4, ![8, 1, 1024, 1024]⟩ : Shape).Idx → BitVec 32) :
    (⟨4, ![8, 16, 1024, 64]⟩ : Shape).Idx → EReal :=
  fun i => outRow (attnAt Q K M (i 0) (i 1) (i 2)) (fun c d => V (ix4 (i 0) (i 1) c d)) (i 3)

end Cert.Attn

end
-- ==== Proof.KernelValue.lean ====
/-
  From blocks to arrays: what the kernel's run leaves in its two result arrays.

  Grid point `t = (b, h)` stages block `(b, h)` of the queries, keys and values, block `b` of the (head-shared) mask,
  and writes back block `(b, h)` of each result. What it writes back is the block function of those input blocks,
  which is the restriction of the whole-array function to block `(b, h)`; the 128 blocks tile each result array; so
  each result array ends as the whole-array function of the argument arrays.
-/
import proofs.«416634_j33182917329161_3_alg».proof.Proof.Gen.KernelIdeal.Value
import proofs.«416634_j33182917329161_3_alg».proof.Proof.Block
import proofs.«416634_j33182917329161_3_alg».proof.Proof.AttnArray

set_option maxRecDepth 16384

noncomputable section

namespace Cert.KernelIdeal.KernelValue

open Cert.KernelIdeal Cert.KernelIdeal.Gen Cert.KernelIdeal.Value Cert.KernelIdeal.Block
open Idealize.ShloMosaic Idealize.ShloMosaic.TcCoe Idealize.ShloMosaic.ValueIdx Idealize.SL.Sem
open Idealize.ShloMosaic.Pipeline (Dat)
open Cert.Attn

variable (m : (ℓ : Loc nD τ sig) → Buf (Elt Ideal) ℓ) (ρ : Dev nD → PrngReg)

/-- The printed index maps over the grid: the query, key, value and both result windows sit at block `(b, h, 0, 0)`,
    the mask window at block `(b, 0, 0, 0)`, with `b < 8` and `h < 16`. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = 0 ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = 0 ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = 0 ∧ win0_4.index t (3 : Fin 4) = 0)
    ∧ (win0_5.index t (0 : Fin 4) < 8 ∧ win0_5.index t (1 : Fin 4) < 16
      ∧ win0_5.index t (2 : Fin 4) = 0 ∧ win0_5.index t (3 : Fin 4) = 0) :=
  (by decide +kernel : ∀ t : Fin grid0.N, _)

/-- Every block `(b, h)` is some point's. -/
theorem idx_onto : ∀ (b : Fin 8) (h : Fin 16), ∃ t : Fin cfg0.N, win0_5.index t (0 : Fin 4) = b.val ∧ win0_5.index t (1 : Fin 4) = h.val :=
  (by decide +kernel : ∀ (b : Fin 8) (h : Fin 16), ∃ t : Fin grid0.N, win0_5.index t (0 : Fin 4) = b.val ∧ win0_5.index t (1 : Fin 4) = h.val)

/-- The block's attention row is the array's, once the input blocks are known to be rows `(b, h)` of the arrays. -/
theorem attnOfBlock_eq (Q K : (⟨4, ![8, 16, 1024, 64]⟩ : Shape).Idx → EReal) (M : (⟨4, ![8, 1, 1024, 1024]⟩ : Shape).Idx → BitVec 32)
    (b : Fin 8) (h : Fin 16) (X0 X1 : S1x1x1024x64.Idx → EReal) (X3 : S1x1x1024x1024.Idx → BitVec 32)
    (h0 : ∀ (r : Fin 1024) (d : Fin 64), X0 (ix4 (0 : Fin 1) (0 : Fin 1) r d) = Q (ix4 b h r d))
    (h1 : ∀ (c : Fin 1024) (d : Fin 64), X1 (ix4 (0 : Fin 1) (0 : Fin 1) c d) = K (ix4 b h c d))
    (h3 : ∀ (r c : Fin 1024), X3 (ix4 (0 : Fin 1) (0 : Fin 1) r c) = M (ix4 b (0 : Fin 1) r c))
    (r : Fin 1024) : attnOfBlock X0 X1 X3 r = attnAt Q K M b h r := by
  unfold attnOfBlock attnAt
  simp only [h0, h1, h3]

/-- Block `t` of the queries (window 0) is rows `(b, h)` of the query array. -/
theorem blk0 (c : Dev nD) (t : Fin cfg0.N) (b : Fin 8) (h : Fin 16) (hb : win0_5.index t (0 : Fin 4) = b.val) (hh : win0_5.index t (1 : Fin 4) = h.val)
    (r : Fin 1024) (d : Fin 64) : iblk m c 0 t (ix4 (0 : Fin 1) (0 : Fin 1) r d) = V m c main_arg0 (ix4 b h r d) := by
  obtain ⟨⟨e0, e1, e2, e3⟩, -⟩ := idx_facts t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 1024 + 1 * r.val = r.val; omega
  | ⟨3, _⟩ => show win0_0.index t (3 : Fin 4) * 64 + 1 * d.val = d.val; omega

/-- Block `t` of the keys (window 1). -/
theorem blk1 (c : Dev nD) (t : Fin cfg0.N) (b : Fin 8) (h : Fin 16) (hb : win0_5.index t (0 : Fin 4) = b.val) (hh : win0_5.index t (1 : Fin 4) = h.val)
    (r : Fin 1024) (d : Fin 64) : iblk m c 1 t (ix4 (0 : Fin 1) (0 : Fin 1) r d) = V m c main_arg1 (ix4 b h r d) := by
  obtain ⟨-, ⟨e0, e1, e2, e3⟩, -⟩ := idx_facts t
  show V m c main_arg1 (((cfg0.win 1).blk t).view.emb (ix4 (0 : Fin 1) (0 : Fin 1) r d)) = _
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 1024 + 1 * r.val = r.val; omega
  | ⟨3, _⟩ => show win0_1.index t (3 : Fin 4) * 64 + 1 * d.val = d.val; omega

/-- Block `t` of the values (window 2). -/
theorem blk2 (c : Dev nD) (t : Fin cfg0.N) (b : Fin 8) (h : Fin 16) (hb : win0_5.index t (0 : Fin 4) = b.val) (hh : win0_5.index t (1 : Fin 4) = h.val)
    (r : Fin 1024) (d : Fin 64) : iblk m c 2 t (ix4 (0 : Fin 1) (0 : Fin 1) r d) = V m c main_arg2 (ix4 b h r d) := by
  obtain ⟨-, -, ⟨e0, e1, e2, e3⟩, -⟩ := idx_facts t
  show V m c main_arg2 (((cfg0.win 2).blk t).view.emb (ix4 (0 : Fin 1) (0 : Fin 1) r d)) = _
  refine congrArg (V m c main_arg2) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 1024 + 1 * r.val = r.val; omega
  | ⟨3, _⟩ => show win0_2.index t (3 : Fin 4) * 64 + 1 * d.val = d.val; omega

/-- Block `t` of the mask (window 3) is rows `(b, 0)` of the mask array, whatever the head. -/
theorem blk3 (c : Dev nD) (t : Fin cfg0.N) (b : Fin 8) (hb : win0_5.index t (0 : Fin 4) = b.val)
    (r k : Fin 1024) : iblk m c 3 t (ix4 (0 : Fin 1) (0 : Fin 1) r k) = V m c main_arg3 (ix4 b (0 : Fin 1) r k) := by
  obtain ⟨-, -, -, ⟨e0, e1, e2, e3⟩, -⟩ := idx_facts t
  show V m c main_arg3 (((cfg0.win 3).blk t).view.emb (ix4 (0 : Fin 1) (0 : Fin 1) r k)) = _
  refine congrArg (V m c main_arg3) (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 1024 + 1 * r.val = r.val; omega
  | ⟨3, _⟩ => show win0_3.index t (3 : Fin 4) * 1024 + 1 * k.val = k.val; omega

/-- WHAT POINT `t` WRITES BACK to the attention array is block `t` of the attention array of the arguments. -/
theorem flushed5_eq (c : Dev nD) (t : Fin cfg0.N) :
    (dats m 0 c).flushed 5 t = ((cfg0.win 5).blk t).view.read (Elt Ideal) (attnArr (V m c main_arg0) (V m c main_arg1) (V m c main_arg3)) := by
  rw [flushed5, out0_5_eq]
  obtain ⟨-, -, -, -, -, ⟨hb, hh, f2, f3⟩⟩ := idx_facts t
  funext j
  obtain ⟨u, v, r, k, rfl⟩ : ∃ (u v : Fin 1) (r k : Fin 1024), j = ix4 u v r k := ⟨j 0, j 1, j 2, j 3, eq_ix4 j⟩
  have hu : u.val = 0 := by omega
  have hv : v.val = 0 := by omega
  have he : ((cfg0.win 5).blk t).view.emb (ix4 u v r k) = ix4 (⟨win0_5.index t (0 : Fin 4), hb⟩ : Fin 8) (⟨win0_5.index t (1 : Fin 4), hh⟩ : Fin 16) r k :=
    funext fun a => Fin.ext (by
      match a with
      | ⟨0, _⟩ => show win0_5.index t (0 : Fin 4) * 1 + 1 * u.val = win0_5.index t (0 : Fin 4); omega
      | ⟨1, _⟩ => show win0_5.index t (1 : Fin 4) * 1 + 1 * v.val = win0_5.index t (1 : Fin 4); omega
      | ⟨2, _⟩ => show win0_5.index t (2 : Fin 4) * 1024 + 1 * r.val = r.val; omega
      | ⟨3, _⟩ => show win0_5.index t (3 : Fin 4) * 1024 + 1 * k.val = k.val; omega)
  show attnOfBlock (iblk m c 0 t) (iblk m c 1 t) (iblk m c 3 t) r k
    = attnArr (V m c main_arg0) (V m c main_arg1) (V m c main_arg3) (((cfg0.win 5).blk t).view.emb (ix4 u v r k))
  rw [he, attnOfBlock_eq (V m c main_arg0) (V m c main_arg1) (V m c main_arg3) ⟨_, hb⟩ ⟨_, hh⟩ _ _ _
    (blk0 m c t ⟨_, hb⟩ ⟨_, hh⟩ rfl rfl) (blk1 m c t ⟨_, hb⟩ ⟨_, hh⟩ rfl rfl) (blk3 m c t ⟨_, hb⟩ rfl)]
  rfl

/-- WHAT POINT `t` WRITES BACK to the output array is block `t` of the output array of the arguments. -/
theorem flushed4_eq (c : Dev nD) (t : Fin cfg0.N) :
    (dats m 0 c).flushed 4 t = ((cfg0.win 4).blk t).view.read (Elt Ideal) (outArr (V m c main_arg0) (V m c main_arg1) (V m c main_arg2) (V m c main_arg3)) := by
  rw [flushed4, out0_4_eq]
  obtain ⟨-, -, -, -, ⟨g0, g1, g2, g3⟩, ⟨hb, hh, f2, f3⟩⟩ := idx_facts t
  funext j
  obtain ⟨u, v, r, d, rfl⟩ : ∃ (u v : Fin 1) (r : Fin 1024) (d : Fin 64), j = ix4 u v r d := ⟨j 0, j 1, j 2, j 3, eq_ix4 j⟩
  have hu : u.val = 0 := by omega
  have hv : v.val = 0 := by omega
  have he : ((cfg0.win 4).blk t).view.emb (ix4 u v r d) = ix4 (⟨win0_5.index t (0 : Fin 4), hb⟩ : Fin 8) (⟨win0_5.index t (1 : Fin 4), hh⟩ : Fin 16) r d :=
    funext fun a => Fin.ext (by
      match a with
      | ⟨0, _⟩ => show win0_4.index t (0 : Fin 4) * 1 + 1 * u.val = win0_5.index t (0 : Fin 4); omega
      | ⟨1, _⟩ => show win0_4.index t (1 : Fin 4) * 1 + 1 * v.val = win0_5.index t (1 : Fin 4); omega
      | ⟨2, _⟩ => show win0_4.index t (2 : Fin 4) * 1024 + 1 * r.val = r.val; omega
      | ⟨3, _⟩ => show win0_4.index t (3 : Fin 4) * 64 + 1 * d.val = d.val; omega)
  show outRow (attnOfBlock (iblk m c 0 t) (iblk m c 1 t) (iblk m c 3 t) r) (fun k d' => iblk m c 2 t (ix4 (0 : Fin 1) (0 : Fin 1) k d')) d
    = outArr (V m c main_arg0) (V m c main_arg1) (V m c main_arg2) (V m c main_arg3) (((cfg0.win 4).blk t).view.emb (ix4 u v r d))
  rw [he, attnOfBlock_eq (V m c main_arg0) (V m c main_arg1) (V m c main_arg3) ⟨_, hb⟩ ⟨_, hh⟩ _ _ _
    (blk0 m c t ⟨_, hb⟩ ⟨_, hh⟩ rfl rfl) (blk1 m c t ⟨_, hb⟩ ⟨_, hh⟩ rfl rfl) (blk3 m c t ⟨_, hb⟩ rfl)]
  simp only [blk2 m c t ⟨_, hb⟩ ⟨_, hh⟩ rfl rfl]
  rfl

/-- An index of the attention array is in point `t`'s block iff each coordinate is in the block's range. -/
theorem mem_blk5 (t : Fin cfg0.N) (i : S8x16x1024x1024.Idx) :
    i ∈ ((cfg0.win 5).blk t).view.set ↔ ∀ a : Fin 4, win0_5.index t a * S1x1x1024x1024.size a ≤ (i a).val ∧ (i a).val < win0_5.index t a * S1x1x1024x1024.size a + S1x1x1024x1024.size a := by
  show i ∈ ((View.whole main_v0_1).slice (win0_5.rect t)).set ↔ _
  rw [View.set_slice_whole, Rect.mem_set_unit]
  exact Iff.rfl

theorem mem_blk4 (t : Fin cfg0.N) (i : S8x16x1024x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v0_0).slice (win0_4.rect t)).set ↔ _
  rw [View.set_slice_whole, Rect.mem_set_unit]
  exact Iff.rfl

/-- The 128 blocks cover the attention array. -/
theorem cover5 (i : S8x16x1024x1024.Idx) : ∃ t : Fin cfg0.N, (cfg0.win 5).flush t = true ∧ i ∈ ((cfg0.win 5).blk t).view.set := by
  obtain ⟨t, hb, hh⟩ := idx_onto (i 0) (i 1)
  obtain ⟨-, -, -, -, -, ⟨-, -, f2, f3⟩⟩ := idx_facts t
  refine ⟨t, flush0_5 t, ?_⟩
  rw [mem_blk5]
  intro a
  have h2 : (i 2).val < 1024 := (i 2).isLt
  have h3 : (i 3).val < 1024 := (i 3).isLt
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 1024 ≤ (i 3).val ∧ (i 3).val < win0_5.index t (3 : Fin 4) * 1024 + 1024; omega

/-- The 128 blocks cover the output array. -/
theorem cover4 (i : S8x16x1024x64.Idx) : ∃ t : Fin cfg0.N, (cfg0.win 4).flush t = true ∧ i ∈ ((cfg0.win 4).blk t).view.set := by
  obtain ⟨t, hb, hh⟩ := idx_onto (i 0) (i 1)
  obtain ⟨-, -, -, -, ⟨g0, g1, g2, g3⟩, -⟩ := idx_facts t
  refine ⟨t, flush0_4 t, ?_⟩
  rw [mem_blk4]
  intro a
  have h2 : (i 2).val < 1024 := (i 2).isLt
  have h3 : (i 3).val < 64 := (i 3).isLt
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- THE ATTENTION ARRAY after the run. -/
theorem final5 (c : Dev nD) : (dats m 0 c).arrAt 5 cfg0.N
    = attnArr (m ((c : Thread nD τ).loc main_arg0)) (m ((c : Thread nD τ).loc main_arg1)) (m ((c : Thread nD τ).loc main_arg3)) :=
  (dats m 0 c).arrAt_eq_of_cover 5 _ (fun t _ => flushed5_eq m c t) cover5

/-- THE OUTPUT ARRAY after the run. -/
theorem final4 (c : Dev nD) : (dats m 0 c).arrAt 4 cfg0.N
    = outArr (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) cover4

/-- The kernel's run with each result array at its function of the argument arrays, the arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = attnArr (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.KernelIdeal.KernelValue

end
-- ==== Proof.RefValue.lean ====
/-
  The reference, stage by stage, is the two whole-array functions.

  Its scores divide `Q·Kᵀ` by `8`, which is the product with `1/8` on every extended real; its softmax takes the row
  maximum as a fold of `max` from `−∞` and then once more against `−∞`, which changes nothing; its row sum starts
  from `0`; the mask, of one head, is repeated over the sixteen heads before the overwrite; the output contracts
  the keys' axis of the attention array with the values.
-/
import proofs.«416634_j33182917329161_3_alg».proof.Proof.Gen.ReferenceIdeal.Read
import proofs.«416634_j33182917329161_3_alg».proof.Proof.AttnArray
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Idealize.SL.Sem Idealize.ShloMosaic.StableHlo
open Cert.Attn

variable (x0 x1 x2 : (⟨S8x16x1024x64, .f32⟩ : BufTy).Contents (Elt Ideal)) (x3 : (⟨S8x1x1024x1024, .i32⟩ : BufTy).Contents (Elt Ideal))

/-- The scaled scores of query `(b, h, q)`. -/
abbrev sRow (b : Fin 8) (h : Fin 16) (q : Fin 1024) : Fin 1024 → EReal :=
  scoreRow (fun d => x0 (ix4 b h q d)) (fun c d => x1 (ix4 b h c d))

theorem red3 : S8x16x1024x1024.Reduces [3] S8x16x1024 := by decide

theorem lift3 (b : Fin 8) (h : Fin 16) (q : Fin 1024) (c : Fin 1024) : red3.lift (ix3 b h q) c = ix4 b h q c :=
  funext fun a => Fin.ext (by match a with | ⟨0, _⟩ => rfl | ⟨1, _⟩ => rfl | ⟨2, _⟩ => rfl | ⟨3, _⟩ => rfl)

/-- The scores: a quotient by `8`. -/
theorem v2_apply (b : Fin 8) (h : Fin 16) (q c : Fin 1024) :
    val_main_v2 (F := Ideal) x0 x1 (ix4 b h q c) = sRow x0 x1 b h q c := by
  rw [val_main_v2_apply, val_main_v0_apply, val_main_v1_apply, val_main_cst_apply]
  show Ideal.div (∑ d : Fin 64, x0 (lidx_main_v0 (ix4 b h q c) d) * x1 (ridx_main_v0 (ix4 b h q c) d)) (Ideal.ofBits .f32 0x41000000#32) = _
  rw [div_eight]
  have hl : ∀ d : Fin 64, lidx_main_v0 (ix4 b h q c) d = ix4 b h q d := fun d => funext fun a => Fin.ext (by
    match a with | ⟨0, _⟩ => rfl | ⟨1, _⟩ => rfl | ⟨2, _⟩ => rfl | ⟨3, _⟩ => rfl)
  have hr : ∀ d : Fin 64, ridx_main_v0 (ix4 b h q c) d = ix4 b h c d := fun d => funext fun a => Fin.ext (by
    match a with | ⟨0, _⟩ => rfl | ⟨1, _⟩ => rfl | ⟨2, _⟩ => rfl | ⟨3, _⟩ => rfl)
  simp only [hl, hr]
  rfl

/-- The row maximum: the host's reduce with a maximum body, from `−∞`. -/
theorem v3_apply (b : Fin 8) (h : Fin 16) (q : Fin 1024) :
    val_main_v3 (F := Ideal) x0 x1 (ix3 b h q) = rowMax (sRow x0 x1 b h q) := by
  unfold val_main_v3
  rw [Host.reduce_eq_fold_single (FloatOps.maximumf (F := Ideal) (φ := .f32)) _ _ reducesTo_S8x16x1024x1024_S8x16x1024_d3 red3 h_S_]
  show Finset.fold max (Ideal.ofBits .f32 0xFF800000#32) (fun c : Fin 1024 => val_main_v2 (F := Ideal) x0 x1 (red3.lift (ix3 b h q) c)) (Finset.univ : Finset (Fin 1024)) = _
  simp only [lift3, v2_apply]
  rfl

/-- … taken once more against `−∞`. -/
theorem v5_apply (b : Fin 8) (h : Fin 16) (q : Fin 1024) :
    val_main_v5 (F := Ideal) x0 x1 (ix3 b h q) = rowMax (sRow x0 x1 b h q) := by
  rw [val_main_v5_apply, val_main_v4_apply, val_main_cst_1_apply, v3_apply]
  exact max_init_rowMax _

/-- The row maximum repeated along the row. -/
theorem v7_apply (b : Fin 8) (h : Fin 16) (q c : Fin 1024) :
    val_main_v7 (F := Ideal) x0 x1 (ix4 b h q c) = rowMax (sRow x0 x1 b h q) := by
  rw [val_main_v7_apply, val_main_v6_apply]
  have e : idx_main_v6 (idx_main_v7 (ix4 b h q c)) = ix3 b h q := funext fun a => Fin.ext (by
    match a with | ⟨0, _⟩ => rfl | ⟨1, _⟩ => rfl | ⟨2, _⟩ => rfl)
  rw [e, v5_apply]

/-- The shifted exponentials. -/
theorem v9_apply (b : Fin 8) (h : Fin 16) (q c : Fin 1024) :
    val_main_v9 (F := Ideal) x0 x1 (ix4 b h q c) = expRow (sRow x0 x1 b h q) c := by
  rw [val_main_v9_apply, val_main_v8_apply, v2_apply, v7_apply]
  rfl

/-- The row sum, from `0`. -/
theorem v10_apply (b : Fin 8) (h : Fin 16) (q : Fin 1024) :
    val_main_v10 (F := Ideal) x0 x1 (ix3 b h q) = ∑ c : Fin 1024, expRow (sRow x0 x1 b h q) c := by
  rw [val_main_v10_apply, val_main_cst_2_apply]
  show Ideal.ofBits .f32 0x00000000#32 + _ = _
  rw [Ideal.ofBits_zero_f32, zero_add]
  refine Finset.sum_congr rfl fun c _ => ?_
  have e : idx_main_v10 (ix3 b h q) c = ix4 b h q c := funext fun a => Fin.ext (by
    match a with | ⟨0, _⟩ => rfl | ⟨1, _⟩ => rfl | ⟨2, _⟩ => rfl | ⟨3, _⟩ => rfl)
  rw [e, v9_apply]

/-- The softmax. -/
theorem v13_apply (b : Fin 8) (h : Fin 16) (q c : Fin 1024) :
    val_main_v13 (F := Ideal) x0 x1 (ix4 b h q c) = softRow (sRow x0 x1 b h q) c := by
  rw [val_main_v13_apply, v9_apply, val_main_v12_apply, val_main_v11_apply]
  have e : idx_main_v11 (idx_main_v12 (ix4 b h q c)) = ix3 b h q := funext fun a => Fin.ext (by
    match a with | ⟨0, _⟩ => rfl | ⟨1, _⟩ => rfl | ⟨2, _⟩ => rfl)
  rw [e, v10_apply]
  rfl

/-- The attention array: the overwrite where the (head-shared) mask word is zero. -/
theorem v16_apply (b : Fin 8) (h : Fin 16) (q c : Fin 1024) :
    val_main_v16 (F := Ideal) x0 x1 x3 (ix4 b h q c) = attnAt x0 x1 x3 b h q c := by
  rw [val_main_v16_apply, v13_apply, val_main_call0_v0_apply, val_main_v15_apply, val_main_v14_apply, val_main_c_apply,
    val_main_call0_v1_apply, val_main_cst_3_apply]
  have e : idx_main_call0_v0 (ix4 b h q c) = ix4 b (0 : Fin 1) q c := funext fun a => Fin.ext (by
    match a with | ⟨0, _⟩ => rfl | ⟨1, _⟩ => rfl | ⟨2, _⟩ => rfl | ⟨3, _⟩ => rfl)
  rw [e]
  rfl

theorem v16_eq : val_main_v16 (F := Ideal) x0 x1 x3 = attnArr x0 x1 x3 := by
  funext i
  obtain ⟨b, h, q, c, rfl⟩ : ∃ (b : Fin 8) (h : Fin 16) (q c : Fin 1024), i = ix4 b h q c := ⟨i 0, i 1, i 2, i 3, eq_ix4 i⟩
  exact v16_apply x0 x1 x3 b h q c

/-- The output array. -/
theorem v17_eq : val_main_v17 (F := Ideal) x0 x1 x2 x3 = outArr x0 x1 x2 x3 := by
  funext i
  obtain ⟨b, h, q, d, rfl⟩ : ∃ (b : Fin 8) (h : Fin 16) (q : Fin 1024) (d : Fin 64), i = ix4 b h q d := ⟨i 0, i 1, i 2, i 3, eq_ix4 i⟩
  rw [val_main_v17_apply]
  show _ = ∑ c : Fin 1024, attnAt x0 x1 x3 b h q c * x2 (ix4 b h c d)
  refine Finset.sum_congr rfl fun c _ => ?_
  have el : lidx_main_v17 (ix4 b h q d) c = ix4 b h q c := funext fun a => Fin.ext (by
    match a with | ⟨0, _⟩ => rfl | ⟨1, _⟩ => rfl | ⟨2, _⟩ => rfl | ⟨3, _⟩ => rfl)
  have er : ridx_main_v17 (ix4 b h q d) c = ix4 b h c d := funext fun a => Fin.ext (by
    match a with | ⟨0, _⟩ => rfl | ⟨1, _⟩ => rfl | ⟨2, _⟩ => rfl | ⟨3, _⟩ => rfl)
  rw [el, er, v16_apply]

end Cert.ReferenceIdeal.RefValue

end
-- ==== Proof.lean ====
/-
  Masked attention, the mask applied after the softmax: a kernel over an 8 × 16 grid of (batch, head) blocks against
  the plain whole-array computation.

  For every batch `b`, head `h` and query `q`, with `s_k = (∑_d Q[b,h,q,d]·K[b,h,k,d])·2⁻³`, `M = max(−∞, s_0, …)`,
  `e_k = exp(s_k − M)` and `Z = ∑_k e_k`:
    attn[b,h,q,k] = −100000 if mask[b,0,q,k] = 0, else e_k / Z,
    out[b,h,q,d]  = ∑_k attn[b,h,q,k]·V[b,h,k,d].
  The kernel computes each (b, h) block in four pieces of 256 query rows, scaling the scores by the product with
  `1/8`; the reference computes the arrays whole, scaling by the quotient by `8` and taking its row maximum once
  more against `−∞`. On the extended reals the quotient by `8` IS the product with `1/8`, and a fold of `max` from
  `−∞` is unchanged by another `max` with `−∞`; every other step is the same operation on both sides, so the two
  programs end with equal arrays for ANY argument values — the finiteness of the inputs is not used.
  The idealization rewrote nothing, so the preservation claim is `True`. Each kernel frame is the generated frame
  run; the reference's frame is its generated run with the results dropped.
-/
import proofs.«416634_j33182917329161_3_alg».proof.Defs
import proofs.«416634_j33182917329161_3_alg».proof.Proof.Gen.Kernel
import proofs.«416634_j33182917329161_3_alg».proof.Proof.Gen.Kernel.Skeleton
import proofs.«416634_j33182917329161_3_alg».proof.Proof.Gen.Kernel.Launch
import proofs.«416634_j33182917329161_3_alg».proof.Proof.Gen.Kernel.Points
import proofs.«416634_j33182917329161_3_alg».proof.Proof.Gen.Kernel.Frame
import proofs.«416634_j33182917329161_3_alg».proof.Proof.Gen.KernelIdeal
import proofs.«416634_j33182917329161_3_alg».proof.Proof.Gen.KernelIdeal.Skeleton
import proofs.«416634_j33182917329161_3_alg».proof.Proof.Gen.KernelIdeal.Launch
import proofs.«416634_j33182917329161_3_alg».proof.Proof.Gen.KernelIdeal.Points
import proofs.«416634_j33182917329161_3_alg».proof.Proof.Gen.KernelIdeal.Frame
import proofs.«416634_j33182917329161_3_alg».proof.Proof.Gen.ReferenceIdeal
import proofs.«416634_j33182917329161_3_alg».proof.Proof.Gen.Pre_finite_inputs
import proofs.«416634_j33182917329161_3_alg».proof.Proof.Gen.KernelIdeal.Value
import proofs.«416634_j33182917329161_3_alg».proof.Proof.Gen.ReferenceIdeal.Run
import proofs.«416634_j33182917329161_3_alg».proof.Proof.Gen.ReferenceIdeal.Read
import proofs.«416634_j33182917329161_3_alg».proof.Proof.KernelValue
import proofs.«416634_j33182917329161_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing was rewritten by the idealization. -/
theorem preserves : Cert.preserves_Kernel_KernelIdeal := trivial

/-- From memories agreeing on the four arguments, the kernel's output and attention arrays and the reference's
    are the same two functions of the arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.v17_eq,
      (hagree c).1, (hagree c).2.1, (hagree c).2.2.1, (hagree c).2.2.2]
  · rw [Cert.ReferenceIdeal.Read.val_main_v16_eq, Cert.ReferenceIdeal.RefValue.v16_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
